-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x20x512x512 : Shape := ⟨4, ![8, 20, 512, 512]⟩
abbrev S8x512x512 : Shape := ⟨3, ![8, 512, 512]⟩
abbrev S20 : Shape := ⟨1, ![20]⟩
abbrev S_ : Shape := ⟨0, ![]⟩

class Facts : Prop where
  bcast_S_S8x20x512x512 : S_.BroadcastsInDim S8x20x512x512 (![] : Fin 0 → Fin S8x20x512x512.rank)
  reducesTo_S8x20x512x512_S_d0_1_2_3 : S8x20x512x512.ReducesTo [0, 1, 2, 3] S_
  h_S_ : 0 < S_.numel

variable [Facts]

def fn {F : FTy → Type} [FloatOps F] (main_arg0 : FVec F S8x20x512x512 .f32) (main_arg1 : IVec S8x512x512 32) (main_arg2 : IVec S8x512x512 32) (main_arg3 : IVec S20 32) : IVec S_ 1 :=
  let main_v0 : FVec F S8x20x512x512 .f32 := Host.absf main_arg0
  let main_cst : FVec F S_ .f32 := constant S_ .f32 0x7F800000#32
  let main_v1 : FVec F S8x20x512x512 .f32 := broadcastInDim S8x20x512x512 ![] bcast_S_S8x20x512x512 main_cst
  let main_v2 : IVec S8x20x512x512 1 := cmpf .olt main_v0 main_v1
  let main_c : IVec S_ 1 := constantI S_ 1 1#1
  let main_v3 : IVec S_ 1 := (fun x v => Host.reduce IntOp.andi x v reducesTo_S8x20x512x512_S_d0_1_2_3 h_S_) main_v2 main_c
  main_v3
-- ==== Kernel.lean ====
abbrev S8x20x512x512 : Shape := ⟨4, ![8, 20, 512, 512]⟩
abbrev S8x512x512 : Shape := ⟨3, ![8, 512, 512]⟩
abbrev S20 : Shape := ⟨1, ![20]⟩
abbrev S8x20x262144 : Shape := ⟨3, ![8, 20, 262144]⟩
abbrev S8x262144 : Shape := ⟨2, ![8, 262144]⟩
abbrev S8x262144x20 : Shape := ⟨3, ![8, 262144, 20]⟩
abbrev S8x20x8192 : Shape := ⟨3, ![8, 20, 8192]⟩
abbrev S8x8192 : Shape := ⟨2, ![8, 8192]⟩
abbrev S8x8192x20 : Shape := ⟨3, ![8, 8192, 20]⟩
abbrev S8x8192x1 : Shape := ⟨3, ![8, 8192, 1]⟩
abbrev S2097152x20 : Shape := ⟨2, ![2097152, 20]⟩
abbrev S2097152 : Shape := ⟨1, ![2097152]⟩
abbrev S_ : Shape := ⟨0, ![]⟩
abbrev S8192x20 : Shape := ⟨2, ![8192, 20]⟩
abbrev S2097152x1 : Shape := ⟨2, ![2097152, 1]⟩
abbrev S8192 : Shape := ⟨1, ![8192]⟩
abbrev S8192x1 : Shape := ⟨2, ![8192, 1]⟩
abbrev S1x20 : Shape := ⟨2, ![1, 20]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 109
  | .vmem => 6
  | .smem => 0
  | _ => 0

abbrev bufTy : (tb : Table) → Fin (tcTables nBuf tb) → BufTy
  | .hbm, ⟨0, _⟩ => ⟨S8x20x512x512, .f32⟩
  | .hbm, ⟨1, _⟩ => ⟨S8x512x512, .i32⟩
  | .hbm, ⟨2, _⟩ => ⟨S8x512x512, .i32⟩
  | .hbm, ⟨3, _⟩ => ⟨S20, .i32⟩
  | .hbm, ⟨4, _⟩ => ⟨S8x20x262144, .f32⟩
  | .hbm, ⟨5, _⟩ => ⟨S8x262144, .i32⟩
  | .hbm, ⟨6, _⟩ => ⟨S8x262144x20, .f32⟩
  | .hbm, ⟨7, _⟩ => ⟨S2097152x20, .f32⟩
  | .hbm, ⟨8, _⟩ => ⟨S2097152, .i32⟩
  | .hbm, ⟨9, _⟩ => ⟨S2097152, .i32⟩
  | .hbm, ⟨10, _⟩ => ⟨S_, .i32⟩
  | .hbm, ⟨11, _⟩ => ⟨S2097152, .i32⟩
  | .hbm, ⟨12, _⟩ => ⟨S2097152, .i1⟩
  | .hbm, ⟨13, _⟩ => ⟨S2097152, .f32⟩
  | .hbm, ⟨14, _⟩ => ⟨S_, .f32⟩
  | .hbm, ⟨15, _⟩ => ⟨S8192x20, .f32⟩
  | .hbm, ⟨16, _⟩ => ⟨S2097152x1, .i32⟩
  | .hbm, ⟨17, _⟩ => ⟨S8192x20, .f32⟩
  | .hbm, ⟨18, _⟩ => ⟨S_, .f32⟩
  | .hbm, ⟨19, _⟩ => ⟨S8192, .f32⟩
  | .hbm, ⟨20, _⟩ => ⟨S2097152x1, .i32⟩
  | .hbm, ⟨21, _⟩ => ⟨S8192, .f32⟩
  | .hbm, ⟨22, _⟩ => ⟨S_, .f32⟩
  | .hbm, ⟨23, _⟩ => ⟨S8192, .f32⟩
  | .hbm, ⟨24, _⟩ => ⟨S8192, .f32⟩
  | .hbm, ⟨25, _⟩ => ⟨S8192x1, .f32⟩
  | .hbm, ⟨26, _⟩ => ⟨S8192x20, .f32⟩
  | .hbm, ⟨27, _⟩ => ⟨S8192x20, .f32⟩
  | .hbm, ⟨28, _⟩ => ⟨S2097152, .i32⟩
  | .hbm, ⟨29, _⟩ => ⟨S_, .i32⟩
  | .hbm, ⟨30, _⟩ => ⟨S_, .i32⟩
  | .hbm, ⟨31, _⟩ => ⟨S2097152, .i32⟩
  | .hbm, ⟨32, _⟩ => ⟨S2097152, .i32⟩
  | .hbm, ⟨33, _⟩ => ⟨S_, .i32⟩
  | .hbm, ⟨34, _⟩ => ⟨S8192, .i32⟩
  | .hbm, ⟨35, _⟩ => ⟨S2097152x1, .i32⟩
  | .hbm, ⟨36, _⟩ => ⟨S8192, .i32⟩
  | .hbm, ⟨37, _⟩ => ⟨S_, .i32⟩
  | .hbm, ⟨38, _⟩ => ⟨S8192, .i32⟩
  | .hbm, ⟨39, _⟩ => ⟨S8192, .i32⟩
  | .hbm, ⟨40, _⟩ => ⟨S_, .i32⟩
  | .hbm, ⟨41, _⟩ => ⟨S8192, .i32⟩
  | .hbm, ⟨42, _⟩ => ⟨S8192, .i1⟩
  | .hbm, ⟨43, _⟩ => ⟨S_, .i32⟩
  | .hbm, ⟨44, _⟩ => ⟨S8192, .i32⟩
  | .hbm, ⟨45, _⟩ => ⟨S8192, .i32⟩
  | .hbm, ⟨46, _⟩ => ⟨S8192, .i32⟩
  | .hbm, ⟨47, _⟩ => ⟨S8192x1, .i32⟩
  | .hbm, ⟨48, _⟩ => ⟨S8192, .i32⟩
  | .hbm, ⟨49, _⟩ => ⟨S_, .f32⟩
  | .hbm, ⟨50, _⟩ => ⟨S8192, .f32⟩
  | .hbm, ⟨51, _⟩ => ⟨S8192, .i1⟩
  | .hbm, ⟨52, _⟩ => ⟨S20, .f32⟩
  | .hbm, ⟨53, _⟩ => ⟨S20, .f32⟩
  | .hbm, ⟨54, _⟩ => ⟨S1x20, .f32⟩
  | .hbm, ⟨55, _⟩ => ⟨S8192x20, .f32⟩
  | .hbm, ⟨56, _⟩ => ⟨S8192x20, .f32⟩
  | .hbm, ⟨57, _⟩ => ⟨S_, .f32⟩
  | .hbm, ⟨58, _⟩ => ⟨S8192, .f32⟩
  | .hbm, ⟨59, _⟩ => ⟨S_, .f32⟩
  | .hbm, ⟨60, _⟩ => ⟨S8192, .f32⟩
  | .hbm, ⟨61, _⟩ => ⟨S8192, .f32⟩
  | .hbm, ⟨62, _⟩ => ⟨S8192x1, .f32⟩
  | .hbm, ⟨63, _⟩ => ⟨S8192x20, .f32⟩
  | .hbm, ⟨64, _⟩ => ⟨S8192x20, .f32⟩
  | .hbm, ⟨65, _⟩ => ⟨S8192x20, .f32⟩
  | .hbm, ⟨66, _⟩ => ⟨S_, .f32⟩
  | .hbm, ⟨67, _⟩ => ⟨S8192, .f32⟩
  | .hbm, ⟨68, _⟩ => ⟨S8192x1, .f32⟩
  | .hbm, ⟨69, _⟩ => ⟨S8192x1, .f32⟩
  | .hbm, ⟨70, _⟩ => ⟨S8192x20, .f32⟩
  | .hbm, ⟨71, _⟩ => ⟨S8192x20, .f32⟩
  | .hbm, ⟨72, _⟩ => ⟨S8192x1, .i32⟩
  | .hbm, ⟨73, _⟩ => ⟨S_, .i32⟩
  | .hbm, ⟨74, _⟩ => ⟨S8192x1, .i32⟩
  | .hbm, ⟨75, _⟩ => ⟨S8192x1, .i1⟩
  | .hbm, ⟨76, _⟩ => ⟨S_, .i32⟩
  | .hbm, ⟨77, _⟩ => ⟨S8192x1, .i32⟩
  | .hbm, ⟨78, _⟩ => ⟨S8192x1, .i32⟩
  | .hbm, ⟨79, _⟩ => ⟨S8192x1, .i32⟩
  | .hbm, ⟨80, _⟩ => ⟨S8192x1x1, .i32⟩
  | .hbm, ⟨81, _⟩ => ⟨S1, .i32⟩
  | .hbm, ⟨82, _⟩ => ⟨S_, .i32⟩
  | .hbm, ⟨83, _⟩ => ⟨S8192x1x1, .i32⟩
  | .hbm, ⟨84, _⟩ => ⟨S8192x1x1, .i1⟩
  | .hbm, ⟨85, _⟩ => ⟨S1x1x1, .i32⟩
  | .hbm, ⟨86, _⟩ => ⟨S8192x1x1, .i32⟩
  | .hbm, ⟨87, _⟩ => ⟨S8192x1x1, .i1⟩
  | .hbm, ⟨88, _⟩ => ⟨S8192x1x1, .i1⟩
  | .hbm, ⟨89, _⟩ => ⟨S_, .i1⟩
  | .hbm, ⟨90, _⟩ => ⟨S8192x1, .i1⟩
  | .hbm, ⟨91, _⟩ => ⟨S8192x1, .f32⟩
  | .hbm, ⟨92, _⟩ => ⟨S_, .f32⟩
  | .hbm, ⟨93, _⟩ => ⟨S8192x1, .f32⟩
  | .hbm, ⟨94, _⟩ => ⟨S8192x1, .f32⟩
  | .hbm, ⟨95, _⟩ => ⟨S8192, .f32⟩
  | .hbm, ⟨96, _⟩ => ⟨S8192, .f32⟩
  | .hbm, ⟨97, _⟩ => ⟨S_, .f32⟩
  | .hbm, ⟨98, _⟩ => ⟨S_, .f32⟩
  | .hbm, ⟨99, _⟩ => ⟨S8192, .f32⟩
  | .hbm, ⟨100, _⟩ => ⟨S8192, .f32⟩
  | .hbm, ⟨101, _⟩ => ⟨S_, .f32⟩
  | .hbm, ⟨102, _⟩ => ⟨S_, .f32⟩
  | .hbm, ⟨103, _⟩ => ⟨S8192, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .local _ .vmem, ⟨0, _⟩ => ⟨S8x20x8192, .f32⟩
  | .local _ .vmem, ⟨1, _⟩ => ⟨S8x20x8192, .f32⟩
  | .local _ .vmem, ⟨2, _⟩ => ⟨S8x8192, .i32⟩
  | .local _ .vmem, ⟨3, _⟩ => ⟨S8x8192, .i32⟩
  | .local _ .vmem, ⟨4, _⟩ => ⟨S8x8192x20, .f32⟩
  | .local _ .vmem, ⟨5, _⟩ => ⟨S8x8192x20, .f32⟩
  | _, _ => ⟨S8x20x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_2 : Ref sig .tc := ⟨.hbm, 29, rfl⟩
abbrev main_call0_v0 : Ref sig .tc := ⟨.hbm, 30, rfl⟩
abbrev main_call0_v1 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_call1_cst : Ref sig .tc := ⟨.hbm, 57, rfl⟩
abbrev main_call1_v0 : Ref sig .tc := ⟨.hbm, 58, rfl⟩
abbrev main_call1_cst_0 : Ref sig .tc := ⟨.hbm, 59, rfl⟩
abbrev main_call1_v1 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_v5 : Ref sig .tc := ⟨.hbm, 64, rfl⟩
abbrev main_call1_v6 : Ref sig .tc := ⟨.hbm, 65, rfl⟩
abbrev main_call1_cst_1 : Ref sig .tc := ⟨.hbm, 66, rfl⟩
abbrev main_call1_v7 : Ref sig .tc := ⟨.hbm, 67, rfl⟩
abbrev main_call1_v8 : Ref sig .tc := ⟨.hbm, 68, rfl⟩
abbrev main_call1_v9 : Ref sig .tc := ⟨.hbm, 69, rfl⟩
abbrev main_call1_v10 : Ref sig .tc := ⟨.hbm, 70, rfl⟩
abbrev main_v41 : Ref sig .tc := ⟨.hbm, 71, rfl⟩
abbrev main_v42 : Ref sig .tc := ⟨.hbm, 72, rfl⟩
abbrev main_call2_c : Ref sig .tc := ⟨.hbm, 73, rfl⟩
abbrev main_call2_v0 : Ref sig .tc := ⟨.hbm, 74, rfl⟩
abbrev main_call2_v1 : Ref sig .tc := ⟨.hbm, 75, rfl⟩
abbrev main_call2_c_0 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_v5 : Ref sig .tc := ⟨.hbm, 80, rfl⟩
abbrev main_call2_c_1 : Ref sig .tc := ⟨.hbm, 81, rfl⟩
abbrev main_call2_c_2 : Ref sig .tc := ⟨.hbm, 82, rfl⟩
abbrev main_call2_v6 : Ref sig .tc := ⟨.hbm, 83, rfl⟩
abbrev main_call2_v7 : Ref sig .tc := ⟨.hbm, 84, rfl⟩
abbrev main_call2_v8 : Ref sig .tc := ⟨.hbm, 85, rfl⟩
abbrev main_call2_v9 : Ref sig .tc := ⟨.hbm, 86, rfl⟩
abbrev main_call2_v10 : Ref sig .tc := ⟨.hbm, 87, rfl⟩
abbrev main_call2_v11 : Ref sig .tc := ⟨.hbm, 88, rfl⟩
abbrev main_call2_c_3 : Ref sig .tc := ⟨.hbm, 89, rfl⟩
abbrev main_call2_v12 : Ref sig .tc := ⟨.hbm, 90, rfl⟩
abbrev main_call2_v13 : Ref sig .tc := ⟨.hbm, 91, rfl⟩
abbrev main_call2_cst : Ref sig .tc := ⟨.hbm, 92, rfl⟩
abbrev main_call2_v14 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_cst_8 : Ref sig .tc := ⟨.hbm, 97, rfl⟩
abbrev main_call3_v0 : Ref sig .tc := ⟨.hbm, 98, rfl⟩
abbrev main_call3_v1 : Ref sig .tc := ⟨.hbm, 99, rfl⟩
abbrev main_v46 : Ref sig .tc := ⟨.hbm, 100, rfl⟩
abbrev main_cst_9 : Ref sig .tc := ⟨.hbm, 101, rfl⟩
abbrev main_v47 : Ref sig .tc := ⟨.hbm, 102, rfl⟩
abbrev main_v48 : Ref sig .tc := ⟨.hbm, 103, rfl⟩
abbrev main_cst_10 : Ref sig .tc := ⟨.hbm, 104, rfl⟩
abbrev main_v49 : Ref sig .tc := ⟨.hbm, 105, rfl⟩
abbrev main_cst_11 : Ref sig .tc := ⟨.hbm, 106, rfl⟩
abbrev main_v50 : Ref sig .tc := ⟨.hbm, 107, rfl⟩
abbrev main_v51 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x20x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x8192x20 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S8x20x512x512_S8x20x262144 : S8x20x512x512.ShapeCasts S8x20x262144
  shapeCasts_S8x512x512_S8x262144 : S8x512x512.ShapeCasts S8x262144
  inb_S8x20x8192_S8x20x8192_0_0_0 : ∀ a, (![0, 0, 0] : Fin 3 → Nat) a + S8x20x8192.size a ≤ S8x20x8192.size a
  h_S8x20x8192 : 0 < S8x20x8192.numel
  shapeCasts_S8x20x8192_S8x20x8192 : S8x20x8192.ShapeCasts S8x20x8192
  inb_S8x8192_S8x8192_0_0 : ∀ a, (![0, 0] : Fin 2 → Nat) a + S8x8192.size a ≤ S8x8192.size a
  h_S8x8192 : 0 < S8x8192.numel
  shapeCasts_S8x8192_S8x8192 : S8x8192.ShapeCasts S8x8192
  natLt_1_32 : 1 < 32
  transposes_S8x20x8192_p0_2_1_S8x8192x20 : S8x20x8192.Transposes [0, 2, 1] S8x8192x20
  shapeCasts_S8x8192_S8x8192x1 : S8x8192.ShapeCasts S8x8192x1
  broadcasts_S8x8192x1_S8x8192x20 : S8x8192x1.Broadcasts S8x8192x20
  inb_S8x8192x20_S8x8192x20_0_0_0 : ∀ a, (![0, 0, 0] : Fin 3 → Nat) a + S8x8192x20.size a ≤ S8x8192x20.size a
  h_S8x8192x20 : 0 < S8x8192x20.numel
  shapeCasts_S8x262144x20_S2097152x20 : S8x262144x20.ShapeCasts S2097152x20
  shapeCasts_S8x512x512_S2097152 : S8x512x512.ShapeCasts S2097152
  bcast_S_S2097152 : S_.BroadcastsInDim S2097152 (![] : Fin 0 → Fin S2097152.rank)
  bcast_S_S8192x20 : S_.BroadcastsInDim S8192x20 (![] : Fin 0 → Fin S8192x20.rank)
  bcast_S2097152_S2097152x1_0 : S2097152.BroadcastsInDim S2097152x1 (![0] : Fin 1 → Fin S2097152x1.rank)
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x20_0_1 : S8192x1.BroadcastsInDim S8192x20 (![0, 1] : Fin 2 → Fin S8192x20.rank)
  bcast_S20_S1x20_1 : S20.BroadcastsInDim S1x20 (![1] : Fin 1 → Fin S1x20.rank)
  bcast_S1x20_S8192x20_0_1 : S1x20.BroadcastsInDim S8192x20 (![0, 1] : Fin 2 → Fin S8192x20.rank)
  reducesTo_S8192x20_S8192_d1 : S8192x20.ReducesTo [1] S8192
  h_S_ : 0 < S_.numel
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  shapeCasts_S8192x1_S8192 : S8192x1.ShapeCasts S8192
  reducesTo_S8192_S_d0 : S8192.ReducesTo [0] S_
  scatter_S8192x20_S2097152x1_S2097152x20_1_0_0_1_wf : ScatterDims.WF S8192x20 S2097152x1 S2097152x20 [1] [0] [0] 1
  scatter_S8192_S2097152x1_S2097152_n_0_0_1_wf : ScatterDims.WF S8192 S2097152x1 S2097152 [] [0] [0] 1
  gather_S2097152_S8192x1_S8192_n_0_n_n_0_1_1_wf : GatherDims.WF S2097152 S8192x1 S8192 [] [0] [] [0] [] 1 ![1]
  gather_S8192x20_S8192x1x1_S8192x1_n_1_0_0_1_2_11_wf : GatherDims.WF S8192x20 S8192x1x1 S8192x1 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x20x8192.size a ≤ S8x20x262144.size a
  hwx0_0 : ∀ i : grid0.Coords, EltTy.bits .f32 = 32 ∨ (Rect.block (s := S8x20x262144) S8x20x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x8192.size a ≤ S8x262144.size a
  hwx0_1 : ∀ i : grid0.Coords, EltTy.bits .i32 = 32 ∨ (Rect.block (s := S8x262144) S8x8192.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x8192x20.size a ≤ S8x262144x20.size a
  hwx0_2 : ∀ i : grid0.Coords, EltTy.bits .f32 = 32 ∨ (Rect.block (s := S8x262144x20) S8x8192x20.size (cc0_transform_2 i) (hinb0_2 i)).WholeWords (EltTy.packing .f32)

variable [Facts₀]

def scatter_S8192x20_S2097152x1_S2097152x20_1_0_0_1 : ScatterDims S8192x20 S2097152x1 S2097152x20 where
  updateWindowDims := [1]
  insertedWindowDims := [0]
  scatterDimsToOperandDims := [0]
  indexVectorDim := 1
  wf := scatter_S8192x20_S2097152x1_S2097152x20_1_0_0_1_wf
def scatter_S8192_S2097152x1_S2097152_n_0_0_1 : ScatterDims S8192 S2097152x1 S2097152 where
  updateWindowDims := []
  insertedWindowDims := [0]
  scatterDimsToOperandDims := [0]
  indexVectorDim := 1
  wf := scatter_S8192_S2097152x1_S2097152_n_0_0_1_wf
def gather_S2097152_S8192x1_S8192_n_0_n_n_0_1_1 : GatherDims S2097152 S8192x1 S8192 where
  offsetDims := []
  collapsedSliceDims := [0]
  operandBatchingDims := []
  startIndicesBatchingDims := []
  startIndexMap := [0]
  indexVectorDim := 1
  sliceSizes := ![1]
  wf := gather_S2097152_S8192x1_S8192_n_0_n_n_0_1_1_wf
def gather_S8192x20_S8192x1x1_S8192x1_n_1_0_0_1_2_11 : GatherDims S8192x20 S8192x1x1 S8192x1 where
  offsetDims := []
  collapsedSliceDims := [1]
  operandBatchingDims := [0]
  startIndicesBatchingDims := [0]
  startIndexMap := [1]
  indexVectorDim := 2
  sliceSizes := ![1, 1]
  wf := gather_S8192x20_S8192x1x1_S8192x1_n_1_0_0_1_2_11_wf

abbrev win0_0 : Pipeline.Window sig grid0 :=
  Pipeline.Window.ofSpec (Memref.whole main_v0) S8x20x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x8192x20.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x20x512x512 : Shape := ⟨4, ![8, 20, 512, 512]⟩
abbrev S8x512x512 : Shape := ⟨3, ![8, 512, 512]⟩
abbrev S20 : Shape := ⟨1, ![20]⟩
abbrev S8x512x512x20 : Shape := ⟨4, ![8, 512, 512, 20]⟩
abbrev S2097152x20 : Shape := ⟨2, ![2097152, 20]⟩
abbrev S2097152 : Shape := ⟨1, ![2097152]⟩
abbrev S_ : Shape := ⟨0, ![]⟩
abbrev S2097152x1 : Shape := ⟨2, ![2097152, 1]⟩
abbrev S8192x20 : Shape := ⟨2, ![8192, 20]⟩
abbrev S8192 : Shape := ⟨1, ![8192]⟩
abbrev S8192x1 : Shape := ⟨2, ![8192, 1]⟩
abbrev S1x20 : Shape := ⟨2, ![1, 20]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 110
  | .vmem => 0
  | .smem => 0
  | _ => 0

abbrev bufTy : (tb : Table) → Fin (tcTables nBuf tb) → BufTy
  | .hbm, ⟨0, _⟩ => ⟨S8x20x512x512, .f32⟩
  | .hbm, ⟨1, _⟩ => ⟨S8x512x512, .i32⟩
  | .hbm, ⟨2, _⟩ => ⟨S8x512x512, .i32⟩
  | .hbm, ⟨3, _⟩ => ⟨S20, .i32⟩
  | .hbm, ⟨4, _⟩ => ⟨S8x512x512x20, .f32⟩
  | .hbm, ⟨5, _⟩ => ⟨S2097152x20, .f32⟩
  | .hbm, ⟨6, _⟩ => ⟨S2097152, .i32⟩
  | .hbm, ⟨7, _⟩ => ⟨S2097152, .i32⟩
  | .hbm, ⟨8, _⟩ => ⟨S_, .i32⟩
  | .hbm, ⟨9, _⟩ => ⟨S2097152, .i32⟩
  | .hbm, ⟨10, _⟩ => ⟨S2097152, .i1⟩
  | .hbm, ⟨11, _⟩ => ⟨S2097152, .f32⟩
  | .hbm, ⟨12, _⟩ => ⟨S2097152x1, .f32⟩
  | .hbm, ⟨13, _⟩ => ⟨S2097152x20, .f32⟩
  | .hbm, ⟨14, _⟩ => ⟨S2097152x20, .f32⟩
  | .hbm, ⟨15, _⟩ => ⟨S_, .f32⟩
  | .hbm, ⟨16, _⟩ => ⟨S8192x20, .f32⟩
  | .hbm, ⟨17, _⟩ => ⟨S2097152x1, .i32⟩
  | .hbm, ⟨18, _⟩ => ⟨S8192x20, .f32⟩
  | .hbm, ⟨19, _⟩ => ⟨S_, .f32⟩
  | .hbm, ⟨20, _⟩ => ⟨S8192, .f32⟩
  | .hbm, ⟨21, _⟩ => ⟨S2097152x1, .i32⟩
  | .hbm, ⟨22, _⟩ => ⟨S8192, .f32⟩
  | .hbm, ⟨23, _⟩ => ⟨S_, .f32⟩
  | .hbm, ⟨24, _⟩ => ⟨S8192, .f32⟩
  | .hbm, ⟨25, _⟩ => ⟨S8192, .f32⟩
  | .hbm, ⟨26, _⟩ => ⟨S8192x1, .f32⟩
  | .hbm, ⟨27, _⟩ => ⟨S8192x20, .f32⟩
  | .hbm, ⟨28, _⟩ => ⟨S8192x20, .f32⟩
  | .hbm, ⟨29, _⟩ => ⟨S2097152, .i32⟩
  | .hbm, ⟨30, _⟩ => ⟨S_, .i32⟩
  | .hbm, ⟨31, _⟩ => ⟨S_, .i32⟩
  | .hbm, ⟨32, _⟩ => ⟨S2097152, .i32⟩
  | .hbm, ⟨33, _⟩ => ⟨S2097152, .i32⟩
  | .hbm, ⟨34, _⟩ => ⟨S_, .i32⟩
  | .hbm, ⟨35, _⟩ => ⟨S8192, .i32⟩
  | .hbm, ⟨36, _⟩ => ⟨S2097152x1, .i32⟩
  | .hbm, ⟨37, _⟩ => ⟨S8192, .i32⟩
  | .hbm, ⟨38, _⟩ => ⟨S_, .i32⟩
  | .hbm, ⟨39, _⟩ => ⟨S8192, .i32⟩
  | .hbm, ⟨40, _⟩ => ⟨S8192, .i32⟩
  | .hbm, ⟨41, _⟩ => ⟨S_, .i32⟩
  | .hbm, ⟨42, _⟩ => ⟨S8192, .i32⟩
  | .hbm, ⟨43, _⟩ => ⟨S8192, .i1⟩
  | .hbm, ⟨44, _⟩ => ⟨S_, .i32⟩
  | .hbm, ⟨45, _⟩ => ⟨S8192, .i32⟩
  | .hbm, ⟨46, _⟩ => ⟨S8192, .i32⟩
  | .hbm, ⟨47, _⟩ => ⟨S8192, .i32⟩
  | .hbm, ⟨48, _⟩ => ⟨S8192x1, .i32⟩
  | .hbm, ⟨49, _⟩ => ⟨S8192, .i32⟩
  | .hbm, ⟨50, _⟩ => ⟨S_, .f32⟩
  | .hbm, ⟨51, _⟩ => ⟨S8192, .f32⟩
  | .hbm, ⟨52, _⟩ => ⟨S8192, .i1⟩
  | .hbm, ⟨53, _⟩ => ⟨S20, .f32⟩
  | .hbm, ⟨54, _⟩ => ⟨S20, .f32⟩
  | .hbm, ⟨55, _⟩ => ⟨S1x20, .f32⟩
  | .hbm, ⟨56, _⟩ => ⟨S8192x20, .f32⟩
  | .hbm, ⟨57, _⟩ => ⟨S8192x20, .f32⟩
  | .hbm, ⟨58, _⟩ => ⟨S_, .f32⟩
  | .hbm, ⟨59, _⟩ => ⟨S8192, .f32⟩
  | .hbm, ⟨60, _⟩ => ⟨S_, .f32⟩
  | .hbm, ⟨61, _⟩ => ⟨S8192, .f32⟩
  | .hbm, ⟨62, _⟩ => ⟨S8192, .f32⟩
  | .hbm, ⟨63, _⟩ => ⟨S8192x1, .f32⟩
  | .hbm, ⟨64, _⟩ => ⟨S8192x20, .f32⟩
  | .hbm, ⟨65, _⟩ => ⟨S8192x20, .f32⟩
  | .hbm, ⟨66, _⟩ => ⟨S8192x20, .f32⟩
  | .hbm, ⟨67, _⟩ => ⟨S_, .f32⟩
  | .hbm, ⟨68, _⟩ => ⟨S8192, .f32⟩
  | .hbm, ⟨69, _⟩ => ⟨S8192x1, .f32⟩
  | .hbm, ⟨70, _⟩ => ⟨S8192x1, .f32⟩
  | .hbm, ⟨71, _⟩ => ⟨S8192x20, .f32⟩
  | .hbm, ⟨72, _⟩ => ⟨S8192x20, .f32⟩
  | .hbm, ⟨73, _⟩ => ⟨S8192x1, .i32⟩
  | .hbm, ⟨74, _⟩ => ⟨S_, .i32⟩
  | .hbm, ⟨75, _⟩ => ⟨S8192x1, .i32⟩
  | .hbm, ⟨76, _⟩ => ⟨S8192x1, .i1⟩
  | .hbm, ⟨77, _⟩ => ⟨S_, .i32⟩
  | .hbm, ⟨78, _⟩ => ⟨S8192x1, .i32⟩
  | .hbm, ⟨79, _⟩ => ⟨S8192x1, .i32⟩
  | .hbm, ⟨80, _⟩ => ⟨S8192x1, .i32⟩
  | .hbm, ⟨81, _⟩ => ⟨S8192x1x1, .i32⟩
  | .hbm, ⟨82, _⟩ => ⟨S1, .i32⟩
  | .hbm, ⟨83, _⟩ => ⟨S_, .i32⟩
  | .hbm, ⟨84, _⟩ => ⟨S8192x1x1, .i32⟩
  | .hbm, ⟨85, _⟩ => ⟨S8192x1x1, .i1⟩
  | .hbm, ⟨86, _⟩ => ⟨S1x1x1, .i32⟩
  | .hbm, ⟨87, _⟩ => ⟨S8192x1x1, .i32⟩
  | .hbm, ⟨88, _⟩ => ⟨S8192x1x1, .i1⟩
  | .hbm, ⟨89, _⟩ => ⟨S8192x1x1, .i1⟩
  | .hbm, ⟨90, _⟩ => ⟨S_, .i1⟩
  | .hbm, ⟨91, _⟩ => ⟨S8192x1, .i1⟩
  | .hbm, ⟨92, _⟩ => ⟨S8192x1, .f32⟩
  | .hbm, ⟨93, _⟩ => ⟨S_, .f32⟩
  | .hbm, ⟨94, _⟩ => ⟨S8192x1, .f32⟩
  | .hbm, ⟨95, _⟩ => ⟨S8192x1, .f32⟩
  | .hbm, ⟨96, _⟩ => ⟨S8192, .f32⟩
  | .hbm, ⟨97, _⟩ => ⟨S8192, .f32⟩
  | .hbm, ⟨98, _⟩ => ⟨S_, .f32⟩
  | .hbm, ⟨99, _⟩ => ⟨S_, .f32⟩
  | .hbm, ⟨100, _⟩ => ⟨S8192, .f32⟩
  | .hbm, ⟨101, _⟩ => ⟨S8192, .f32⟩
  | .hbm, ⟨102, _⟩ => ⟨S_, .f32⟩
  | .hbm, ⟨103, _⟩ => ⟨S_, .f32⟩
  | .hbm, ⟨104, _⟩ => ⟨S8192, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | _, _ => ⟨S8x20x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_2 : Ref sig .tc := ⟨.hbm, 30, rfl⟩
abbrev main_call0_v0 : Ref sig .tc := ⟨.hbm, 31, rfl⟩
abbrev main_call0_v1 : Ref sig .tc := ⟨.hbm, 32, rfl⟩
abbrev main_v22 : Ref sig .tc := ⟨.hbm, 33, rfl⟩
abbrev main_c_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_4 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_call1_cst : Ref sig .tc := ⟨.hbm, 58, rfl⟩
abbrev main_call1_v0 : Ref sig .tc := ⟨.hbm, 59, rfl⟩
abbrev main_call1_cst_0 : Ref sig .tc := ⟨.hbm, 60, rfl⟩
abbrev main_call1_v1 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_call1_v5 : Ref sig .tc := ⟨.hbm, 65, rfl⟩
abbrev main_call1_v6 : Ref sig .tc := ⟨.hbm, 66, rfl⟩
abbrev main_call1_cst_1 : Ref sig .tc := ⟨.hbm, 67, rfl⟩
abbrev main_call1_v7 : Ref sig .tc := ⟨.hbm, 68, rfl⟩
abbrev main_call1_v8 : Ref sig .tc := ⟨.hbm, 69, rfl⟩
abbrev main_call1_v9 : Ref sig .tc := ⟨.hbm, 70, rfl⟩
abbrev main_call1_v10 : Ref sig .tc := ⟨.hbm, 71, rfl⟩
abbrev main_v42 : Ref sig .tc := ⟨.hbm, 72, rfl⟩
abbrev main_v43 : Ref sig .tc := ⟨.hbm, 73, rfl⟩
abbrev main_call2_c : Ref sig .tc := ⟨.hbm, 74, rfl⟩
abbrev main_call2_v0 : Ref sig .tc := ⟨.hbm, 75, rfl⟩
abbrev main_call2_v1 : Ref sig .tc := ⟨.hbm, 76, rfl⟩
abbrev main_call2_c_0 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_call2_v5 : Ref sig .tc := ⟨.hbm, 81, rfl⟩
abbrev main_call2_c_1 : Ref sig .tc := ⟨.hbm, 82, rfl⟩
abbrev main_call2_c_2 : Ref sig .tc := ⟨.hbm, 83, rfl⟩
abbrev main_call2_v6 : Ref sig .tc := ⟨.hbm, 84, rfl⟩
abbrev main_call2_v7 : Ref sig .tc := ⟨.hbm, 85, rfl⟩
abbrev main_call2_v8 : Ref sig .tc := ⟨.hbm, 86, rfl⟩
abbrev main_call2_v9 : Ref sig .tc := ⟨.hbm, 87, rfl⟩
abbrev main_call2_v10 : Ref sig .tc := ⟨.hbm, 88, rfl⟩
abbrev main_call2_v11 : Ref sig .tc := ⟨.hbm, 89, rfl⟩
abbrev main_call2_c_3 : Ref sig .tc := ⟨.hbm, 90, rfl⟩
abbrev main_call2_v12 : Ref sig .tc := ⟨.hbm, 91, rfl⟩
abbrev main_call2_v13 : Ref sig .tc := ⟨.hbm, 92, rfl⟩
abbrev main_call2_cst : Ref sig .tc := ⟨.hbm, 93, rfl⟩
abbrev main_call2_v14 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_cst_8 : Ref sig .tc := ⟨.hbm, 98, rfl⟩
abbrev main_call3_v0 : Ref sig .tc := ⟨.hbm, 99, rfl⟩
abbrev main_call3_v1 : Ref sig .tc := ⟨.hbm, 100, rfl⟩
abbrev main_v47 : Ref sig .tc := ⟨.hbm, 101, rfl⟩
abbrev main_cst_9 : Ref sig .tc := ⟨.hbm, 102, rfl⟩
abbrev main_v48 : Ref sig .tc := ⟨.hbm, 103, rfl⟩
abbrev main_v49 : Ref sig .tc := ⟨.hbm, 104, rfl⟩
abbrev main_cst_10 : Ref sig .tc := ⟨.hbm, 105, rfl⟩
abbrev main_v50 : Ref sig .tc := ⟨.hbm, 106, rfl⟩
abbrev main_cst_11 : Ref sig .tc := ⟨.hbm, 107, rfl⟩
abbrev main_v51 : Ref sig .tc := ⟨.hbm, 108, rfl⟩
abbrev main_v52 : Ref sig .tc := ⟨.hbm, 109, rfl⟩

abbrev nD : Nat := 1
abbrev τ : Topo := Topo.v7x

variable {F : FTy → Type} [FloatOps F]

class Facts₀ : Prop where
  transposes_S8x20x512x512_S8x512x512x20_0_2_3_1 : S8x20x512x512.Transposes [0, 2, 3, 1] S8x512x512x20
  shapeCasts_S8x512x512x20_S2097152x20 : S8x512x512x20.ShapeCasts S2097152x20
  shapeCasts_S8x512x512_S2097152 : S8x512x512.ShapeCasts S2097152
  bcast_S_S2097152 : S_.BroadcastsInDim S2097152 (![] : Fin 0 → Fin S2097152.rank)
  bcast_S2097152_S2097152x1_0 : S2097152.BroadcastsInDim S2097152x1 (![0] : Fin 1 → Fin S2097152x1.rank)
  bcast_S2097152x1_S2097152x20_0_1 : S2097152x1.BroadcastsInDim S2097152x20 (![0, 1] : Fin 2 → Fin S2097152x20.rank)
  bcast_S_S8192x20 : S_.BroadcastsInDim S8192x20 (![] : Fin 0 → Fin S8192x20.rank)
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x20_0_1 : S8192x1.BroadcastsInDim S8192x20 (![0, 1] : Fin 2 → Fin S8192x20.rank)
  bcast_S20_S1x20_1 : S20.BroadcastsInDim S1x20 (![1] : Fin 1 → Fin S1x20.rank)
  bcast_S1x20_S8192x20_0_1 : S1x20.BroadcastsInDim S8192x20 (![0, 1] : Fin 2 → Fin S8192x20.rank)
  reducesTo_S8192x20_S8192_d1 : S8192x20.ReducesTo [1] S8192
  h_S_ : 0 < S_.numel
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  shapeCasts_S8192x1_S8192 : S8192x1.ShapeCasts S8192
  reducesTo_S8192_S_d0 : S8192.ReducesTo [0] S_
  scatter_S8192x20_S2097152x1_S2097152x20_1_0_0_1_wf : ScatterDims.WF S8192x20 S2097152x1 S2097152x20 [1] [0] [0] 1
  scatter_S8192_S2097152x1_S2097152_n_0_0_1_wf : ScatterDims.WF S8192 S2097152x1 S2097152 [] [0] [0] 1
  gather_S2097152_S8192x1_S8192_n_0_n_n_0_1_1_wf : GatherDims.WF S2097152 S8192x1 S8192 [] [0] [] [0] [] 1 ![1]
  gather_S8192x20_S8192x1x1_S8192x1_n_1_0_0_1_2_11_wf : GatherDims.WF S8192x20 S8192x1x1 S8192x1 [] [1] [0] [1] [0] 2 ![1, 1]

variable [Facts₀]

def scatter_S8192x20_S2097152x1_S2097152x20_1_0_0_1 : ScatterDims S8192x20 S2097152x1 S2097152x20 where
  updateWindowDims := [1]
  insertedWindowDims := [0]
  scatterDimsToOperandDims := [0]
  indexVectorDim := 1
  wf := scatter_S8192x20_S2097152x1_S2097152x20_1_0_0_1_wf
def scatter_S8192_S2097152x1_S2097152_n_0_0_1 : ScatterDims S8192 S2097152x1 S2097152 where
  updateWindowDims := []
  insertedWindowDims := [0]
  scatterDimsToOperandDims := [0]
  indexVectorDim := 1
  wf := scatter_S8192_S2097152x1_S2097152_n_0_0_1_wf
def gather_S2097152_S8192x1_S8192_n_0_n_n_0_1_1 : GatherDims S2097152 S8192x1 S8192 where
  offsetDims := []
  collapsedSliceDims := [0]
  operandBatchingDims := []
  startIndicesBatchingDims := []
  startIndexMap := [0]
  indexVectorDim := 1
  sliceSizes := ![1]
  wf := gather_S2097152_S8192x1_S8192_n_0_n_n_0_1_1_wf
def gather_S8192x20_S8192x1x1_S8192x1_n_1_0_0_1_2_11 : GatherDims S8192x20 S8192x1x1 S8192x1 where
  offsetDims := []
  collapsedSliceDims := [1]
  operandBatchingDims := [0]
  startIndicesBatchingDims := [0]
  startIndexMap := [1]
  indexVectorDim := 2
  sliceSizes := ![1, 1]
  wf := gather_S8192x20_S8192x1x1_S8192x1_n_1_0_0_1_2_11_wf

class Facts : Prop extends Facts₀ where

variable [Facts]
-- ==== Proof.FrameK.lean ====
/-
  The frame of the program, by hand: its @main is two reshapes, one pipelined region over 32 grid points, and a
  long stretch of host operations that read the region's result. At each grid point the body loads a block of the
  logits (8 x 20 x 8192) and the matching block of the labels (8 x 8192), and stores one block (8 x 8192 x 20):
  the logits block with its last two axes exchanged, multiplied by the 0/1 indicator "label is not 255" broadcast
  along the class axis. The store covers the whole output block, so what the block holds afterwards is a function
  of the two input blocks alone (`outBlock`). The region is run by the library's launch theorem for a program
  that continues after the region; the later host operations write only their own result buffers, never one of
  the three arrays the region streams, and never an argument. Everything here is generic in the float instance.
-/
import proofs.«407861_j13477607375413_1_alg».proof.Proof.Gen.Kernel.Launch
import proofs.«407861_j13477607375413_1_alg».proof.Proof.Gen.Kernel.Skeleton
import proofs.«407861_j13477607375413_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffer contents of core `c` when the region is entered: the launch contents after the two reshapes. -/
abbrev V0 (c : Dev nD) : Valuation τ sig (Elt F) := StableHlo.after (List.flatten [hostOps0]) (fun b => m (c, b))
/-- The same, read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor

set_option maxHeartbeats 4000000 in
/-- @main is: the reshapes, the region, then the later host operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4, StableHlo.seq hostOps1_5, StableHlo.seq hostOps1_6, StableHlo.seq hostOps1_7, StableHlo.seq hostOps1_8]) :=
  Pipeline.hmain_around cfgs 0 defs₀ 𝒱₀ m main [hostOps0] [hostOps1, hostOps1_1, hostOps1_2, hostOps1_3, hostOps1_4, hostOps1_5, hostOps1_6, hostOps1_7, hostOps1_8] (by simp only [List.Forall]; exact hostOps0_sub)
    (by simp only [List.Forall]; exact hostOps0_fresh) main_chain

/-- The later operations touch only unscoped buffers of the core. -/
theorem sfx_sub : ∀ ops ∈ ([hostOps1, hostOps1_1, hostOps1_2, hostOps1_3, hostOps1_4, hostOps1_5, hostOps1_6, hostOps1_7, hostOps1_8] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)

/-- They allocate nothing. -/
theorem sfx_fresh : ∀ ops ∈ ([hostOps1, hostOps1_1, hostOps1_2, hostOps1_3, hostOps1_4, hostOps1_5, hostOps1_6, hostOps1_7, hostOps1_8] : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop

/-- Each later operation writes one buffer, its own result, which is none of the three streamed arrays: stated
    stretch by stretch as one conjunct per operation. -/
theorem hostOps1_keeps : (hostOps1 : List (HloOp τ sig (Elt F))).Forall fun op =>
    ∀ w : Fin 3, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_1_keeps : (hostOps1_1 : List (HloOp τ sig (Elt F))).Forall fun op =>
    ∀ w : Fin 3, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_2_keeps : (hostOps1_2 : List (HloOp τ sig (Elt F))).Forall fun op =>
    ∀ w : Fin 3, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_3_keeps : (hostOps1_3 : List (HloOp τ sig (Elt F))).Forall fun op =>
    ∀ w : Fin 3, Proc.devRef .tc (Pipeline.arrRef spec0 w) ∉ op.writes := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_4_keeps : (hostOps1_4 : List (HloOp τ sig (Elt F))).Forall fun op =>
    ∀ w : Fin 3, Proc.devRef .tc (Pipeline.arrRef spec0 w) ∉ op.writes := by
  simp only [hostOps1_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_5_keeps : (hostOps1_5 : List (HloOp τ sig (Elt F))).Forall fun op =>
    ∀ w : Fin 3, Proc.devRef .tc (Pipeline.arrRef spec0 w) ∉ op.writes := by
  simp only [hostOps1_5, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_6_keeps : (hostOps1_6 : List (HloOp τ sig (Elt F))).Forall fun op =>
    ∀ w : Fin 3, Proc.devRef .tc (Pipeline.arrRef spec0 w) ∉ op.writes := by
  simp only [hostOps1_6, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_7_keeps : (hostOps1_7 : List (HloOp τ sig (Elt F))).Forall fun op =>
    ∀ w : Fin 3, Proc.devRef .tc (Pipeline.arrRef spec0 w) ∉ op.writes := by
  simp only [hostOps1_7, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_8_keeps : (hostOps1_8 : List (HloOp τ sig (Elt F))).Forall fun op =>
    ∀ w : Fin 3, Proc.devRef .tc (Pipeline.arrRef spec0 w) ∉ op.writes := by
  simp only [hostOps1_8, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))

theorem sfx_keeps : ∀ ops ∈ ([hostOps1, hostOps1_1, hostOps1_2, hostOps1_3, hostOps1_4, hostOps1_5, hostOps1_6, hostOps1_7, hostOps1_8] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop
  · exact (List.forall_iff_forall_mem.mp hostOps1_7_keeps) op hop
  · exact (List.forall_iff_forall_mem.mp hostOps1_8_keeps) op hop

/-! ## The arguments are written by no host operation -/

/-- The reshapes before the region do not write argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Nor do the operations after it: argument 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6, hostOps1_7, hostOps1_8] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, hostOps1_1, hostOps1_2, hostOps1_3, hostOps1_4, hostOps1_5, hostOps1_6, hostOps1_7, hostOps1_8, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- The reshapes before the region do not write argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Nor do the operations after it: argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6, hostOps1_7, hostOps1_8] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, hostOps1_1, hostOps1_2, hostOps1_3, hostOps1_4, hostOps1_5, hostOps1_6, hostOps1_7, hostOps1_8, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- The reshapes before the region do not write argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Nor do the operations after it: argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6, hostOps1_7, hostOps1_8] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, hostOps1_1, hostOps1_2, hostOps1_3, hostOps1_4, hostOps1_5, hostOps1_6, hostOps1_7, hostOps1_8, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- The reshapes before the region do not write argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Nor do the operations after it: argument 3 ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6, hostOps1_7, hostOps1_8] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, hostOps1_1, hostOps1_2, hostOps1_3, hostOps1_4, hostOps1_5, hostOps1_6, hostOps1_7, hostOps1_8, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the point fetched it or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- From a run whose post says each array ends at the library's value and every other unscoped buffer as the later
    operations leave it, the four arguments end as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1, hostOps1_1, hostOps1_2, hostOps1_3, hostOps1_4, hostOps1_5, hostOps1_6, hostOps1_7, hostOps1_8]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
    ((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c)⟩) h

/-! ## The body -/

abbrev rIn0 : Rect S8x20x8192 := Rect.unit (s := S8x20x8192) ![0, 0, 0] S8x20x8192.size inb_S8x20x8192_S8x20x8192_0_0_0
abbrev rIn1 : Rect S8x8192 := Rect.unit (s := S8x8192) ![0, 0] S8x8192.size inb_S8x8192_S8x8192_0_0
abbrev rOut : Rect S8x8192x20 := Rect.unit (s := S8x8192x20) ![0, 0, 0] S8x8192x20.size inb_S8x8192x20_S8x8192x20_0_0_0

/-- What the body leaves in the output block, from the two input blocks: its one store, of the whole block. -/
def outBlock (x0 : Vec F S8x20x8192 .f32) (x1 : Vec F S8x8192 .i32) : Vec F S8x8192x20 .f32 :=
  View.canon [⟨rOut, k0_pay1 (View.ld x0 rIn0) (View.ld x1 rIn1)⟩]

/-- The one store covers the block. -/
theorem outCover (p0 : Vec F S8x8192x20 .f32) (y : S8x8192x20.Idx) :
    ∃ pc ∈ ([⟨rOut, p0⟩] : List (View.Piece (Elt F) S8x8192x20 .f32)), y ∈ pc.1.set :=
  View.cover_of_tiled [⟨rOut, p0⟩] S8x8192x20.size (by rfl) y

set_option maxHeartbeats 1000000 in
/-- The body, on whole staging buffers holding `x0`, `x1` and anything: it ends with the inputs as they were and the
    output at `outBlock x0 x1`. -/
theorem sound_kernel (c : Dev nD) (E : Set ℕ) (i : grid0.Coords)
    (arg1 : Memref sig .tc .vmem S8x20x8192 .f32) (harg1 : arg1.IsWhole)
    (arg2 : Memref sig .tc .vmem S8x8192 .i32) (harg2 : arg2.IsWhole)
    (arg3 : Memref sig .tc .vmem S8x8192x20 .f32) (harg3 : arg3.IsWhole)
    (x0 : Vec F S8x20x8192 .f32) (x1 : Vec F S8x8192 .i32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outBlock x0 x1)) -∗ K ⟨⟩))
      ⊢ wp frame (wpE (defs₀ (F := F)) Variants.none c none) E (cc0__weighted_transpose_kernel i arg1 harg1 arg2 harg2 arg3 harg3) K := by
  simp only [cc0__weighted_transpose_kernel_eq_skeleton]; unfold cc0__weighted_transpose_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (outCover _)

/-! ## The proof data -/

/-- On core `c`: the arrays as the region finds them; after the body at point `t` each input's buffer at its block
    and the output's at `outBlock` of the two; the invariant the library's for a body with nothing of its own. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outBlock (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option maxHeartbeats 8000000 in
set_option backward.isDefEq.respectTransparency.types false in
/-- Every weakly fair execution of @main terminates; each streamed array ends at the library's value computed from the
    proof data, every other unscoped buffer as the later host operations leave it. -/
theorem run_main : θ_run defs (onTc (τ := τ) (main (F := F))) (s₀ m ρ) (Pipeline.FramePost cfgs (dats m) 0 (Pipeline.afterTail₀ cfgs (dats m) 0 (V0 m) [hostOps1, hostOps1_1, hostOps1_2, hostOps1_3, hostOps1_4, hostOps1_5, hostOps1_6, hostOps1_7, hostOps1_8])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4, hostOps1_5, hostOps1_6, hostOps1_7, hostOps1_8]) (hsub := sfx_sub) (hfresh := sfx_fresh) (hkeep := sfx_keeps)
    (hmain := hmain m Variants.none) (hA := A_eq m) (hΦ := fun _ _ => rfl)

/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (run_main m ρ)

end Cert.Kernel.Hand

end
-- ==== Proof.FrameKI.lean ====
/-
  The frame of the program, by hand: its @main is two reshapes, one pipelined region over 32 grid points, and a
  long stretch of host operations that read the region's result. At each grid point the body loads a block of the
  logits (8 x 20 x 8192) and the matching block of the labels (8 x 8192), and stores one block (8 x 8192 x 20):
  the logits block with its last two axes exchanged, multiplied by the 0/1 indicator "label is not 255" broadcast
  along the class axis. The store covers the whole output block, so what the block holds afterwards is a function
  of the two input blocks alone (`outBlock`). The region is run by the library's launch theorem for a program
  that continues after the region; the later host operations write only their own result buffers, never one of
  the three arrays the region streams, and never an argument. Everything here is generic in the float instance.
-/
import proofs.«407861_j13477607375413_1_alg».proof.Proof.Gen.KernelIdeal.Launch
import proofs.«407861_j13477607375413_1_alg».proof.Proof.Gen.KernelIdeal.Skeleton
import proofs.«407861_j13477607375413_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffer contents of core `c` when the region is entered: the launch contents after the two reshapes. -/
abbrev V0 (c : Dev nD) : Valuation τ sig (Elt F) := StableHlo.after (List.flatten [hostOps0]) (fun b => m (c, b))
/-- The same, read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor

set_option maxHeartbeats 4000000 in
/-- @main is: the reshapes, the region, then the later host operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4, StableHlo.seq hostOps1_5, StableHlo.seq hostOps1_6, StableHlo.seq hostOps1_7, StableHlo.seq hostOps1_8]) :=
  Pipeline.hmain_around cfgs 0 defs₀ 𝒱₀ m main [hostOps0] [hostOps1, hostOps1_1, hostOps1_2, hostOps1_3, hostOps1_4, hostOps1_5, hostOps1_6, hostOps1_7, hostOps1_8] (by simp only [List.Forall]; exact hostOps0_sub)
    (by simp only [List.Forall]; exact hostOps0_fresh) main_chain

/-- The later operations touch only unscoped buffers of the core. -/
theorem sfx_sub : ∀ ops ∈ ([hostOps1, hostOps1_1, hostOps1_2, hostOps1_3, hostOps1_4, hostOps1_5, hostOps1_6, hostOps1_7, hostOps1_8] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)

/-- They allocate nothing. -/
theorem sfx_fresh : ∀ ops ∈ ([hostOps1, hostOps1_1, hostOps1_2, hostOps1_3, hostOps1_4, hostOps1_5, hostOps1_6, hostOps1_7, hostOps1_8] : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop

/-- Each later operation writes one buffer, its own result, which is none of the three streamed arrays: stated
    stretch by stretch as one conjunct per operation. -/
theorem hostOps1_keeps : (hostOps1 : List (HloOp τ sig (Elt F))).Forall fun op =>
    ∀ w : Fin 3, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_1_keeps : (hostOps1_1 : List (HloOp τ sig (Elt F))).Forall fun op =>
    ∀ w : Fin 3, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_2_keeps : (hostOps1_2 : List (HloOp τ sig (Elt F))).Forall fun op =>
    ∀ w : Fin 3, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_3_keeps : (hostOps1_3 : List (HloOp τ sig (Elt F))).Forall fun op =>
    ∀ w : Fin 3, Proc.devRef .tc (Pipeline.arrRef spec0 w) ∉ op.writes := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_4_keeps : (hostOps1_4 : List (HloOp τ sig (Elt F))).Forall fun op =>
    ∀ w : Fin 3, Proc.devRef .tc (Pipeline.arrRef spec0 w) ∉ op.writes := by
  simp only [hostOps1_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_5_keeps : (hostOps1_5 : List (HloOp τ sig (Elt F))).Forall fun op =>
    ∀ w : Fin 3, Proc.devRef .tc (Pipeline.arrRef spec0 w) ∉ op.writes := by
  simp only [hostOps1_5, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_6_keeps : (hostOps1_6 : List (HloOp τ sig (Elt F))).Forall fun op =>
    ∀ w : Fin 3, Proc.devRef .tc (Pipeline.arrRef spec0 w) ∉ op.writes := by
  simp only [hostOps1_6, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_7_keeps : (hostOps1_7 : List (HloOp τ sig (Elt F))).Forall fun op =>
    ∀ w : Fin 3, Proc.devRef .tc (Pipeline.arrRef spec0 w) ∉ op.writes := by
  simp only [hostOps1_7, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_8_keeps : (hostOps1_8 : List (HloOp τ sig (Elt F))).Forall fun op =>
    ∀ w : Fin 3, Proc.devRef .tc (Pipeline.arrRef spec0 w) ∉ op.writes := by
  simp only [hostOps1_8, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))

theorem sfx_keeps : ∀ ops ∈ ([hostOps1, hostOps1_1, hostOps1_2, hostOps1_3, hostOps1_4, hostOps1_5, hostOps1_6, hostOps1_7, hostOps1_8] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop
  · exact (List.forall_iff_forall_mem.mp hostOps1_7_keeps) op hop
  · exact (List.forall_iff_forall_mem.mp hostOps1_8_keeps) op hop

/-! ## The arguments are written by no host operation -/

/-- The reshapes before the region do not write argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Nor do the operations after it: argument 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6, hostOps1_7, hostOps1_8] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, hostOps1_1, hostOps1_2, hostOps1_3, hostOps1_4, hostOps1_5, hostOps1_6, hostOps1_7, hostOps1_8, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- The reshapes before the region do not write argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Nor do the operations after it: argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6, hostOps1_7, hostOps1_8] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, hostOps1_1, hostOps1_2, hostOps1_3, hostOps1_4, hostOps1_5, hostOps1_6, hostOps1_7, hostOps1_8, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- The reshapes before the region do not write argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Nor do the operations after it: argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6, hostOps1_7, hostOps1_8] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, hostOps1_1, hostOps1_2, hostOps1_3, hostOps1_4, hostOps1_5, hostOps1_6, hostOps1_7, hostOps1_8, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- The reshapes before the region do not write argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Nor do the operations after it: argument 3 ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6, hostOps1_7, hostOps1_8] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, hostOps1_1, hostOps1_2, hostOps1_3, hostOps1_4, hostOps1_5, hostOps1_6, hostOps1_7, hostOps1_8, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the point fetched it or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- From a run whose post says each array ends at the library's value and every other unscoped buffer as the later
    operations leave it, the four arguments end as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1, hostOps1_1, hostOps1_2, hostOps1_3, hostOps1_4, hostOps1_5, hostOps1_6, hostOps1_7, hostOps1_8]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
    ((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c)⟩) h

/-! ## The body -/

abbrev rIn0 : Rect S8x20x8192 := Rect.unit (s := S8x20x8192) ![0, 0, 0] S8x20x8192.size inb_S8x20x8192_S8x20x8192_0_0_0
abbrev rIn1 : Rect S8x8192 := Rect.unit (s := S8x8192) ![0, 0] S8x8192.size inb_S8x8192_S8x8192_0_0
abbrev rOut : Rect S8x8192x20 := Rect.unit (s := S8x8192x20) ![0, 0, 0] S8x8192x20.size inb_S8x8192x20_S8x8192x20_0_0_0

/-- What the body leaves in the output block, from the two input blocks: its one store, of the whole block. -/
def outBlock (x0 : Vec F S8x20x8192 .f32) (x1 : Vec F S8x8192 .i32) : Vec F S8x8192x20 .f32 :=
  View.canon [⟨rOut, k0_pay1 (View.ld x0 rIn0) (View.ld x1 rIn1)⟩]

/-- The one store covers the block. -/
theorem outCover (p0 : Vec F S8x8192x20 .f32) (y : S8x8192x20.Idx) :
    ∃ pc ∈ ([⟨rOut, p0⟩] : List (View.Piece (Elt F) S8x8192x20 .f32)), y ∈ pc.1.set :=
  View.cover_of_tiled [⟨rOut, p0⟩] S8x8192x20.size (by rfl) y

set_option maxHeartbeats 1000000 in
/-- The body, on whole staging buffers holding `x0`, `x1` and anything: it ends with the inputs as they were and the
    output at `outBlock x0 x1`. -/
theorem sound_kernel (c : Dev nD) (E : Set ℕ) (i : grid0.Coords)
    (arg1 : Memref sig .tc .vmem S8x20x8192 .f32) (harg1 : arg1.IsWhole)
    (arg2 : Memref sig .tc .vmem S8x8192 .i32) (harg2 : arg2.IsWhole)
    (arg3 : Memref sig .tc .vmem S8x8192x20 .f32) (harg3 : arg3.IsWhole)
    (x0 : Vec F S8x20x8192 .f32) (x1 : Vec F S8x8192 .i32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outBlock x0 x1)) -∗ K ⟨⟩))
      ⊢ wp frame (wpE (defs₀ (F := F)) Variants.none c none) E (cc0__weighted_transpose_kernel i arg1 harg1 arg2 harg2 arg3 harg3) K := by
  simp only [cc0__weighted_transpose_kernel_eq_skeleton]; unfold cc0__weighted_transpose_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (outCover _)

/-! ## The proof data -/

/-- On core `c`: the arrays as the region finds them; after the body at point `t` each input's buffer at its block
    and the output's at `outBlock` of the two; the invariant the library's for a body with nothing of its own. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outBlock (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option maxHeartbeats 8000000 in
set_option backward.isDefEq.respectTransparency.types false in
/-- Every weakly fair execution of @main terminates; each streamed array ends at the library's value computed from the
    proof data, every other unscoped buffer as the later host operations leave it. -/
theorem run_main : θ_run defs (onTc (τ := τ) (main (F := F))) (s₀ m ρ) (Pipeline.FramePost cfgs (dats m) 0 (Pipeline.afterTail₀ cfgs (dats m) 0 (V0 m) [hostOps1, hostOps1_1, hostOps1_2, hostOps1_3, hostOps1_4, hostOps1_5, hostOps1_6, hostOps1_7, hostOps1_8])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4, hostOps1_5, hostOps1_6, hostOps1_7, hostOps1_8]) (hsub := sfx_sub) (hfresh := sfx_fresh) (hkeep := sfx_keeps)
    (hmain := hmain m Variants.none) (hA := A_eq m) (hΦ := fun _ _ => rfl)

/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (run_main m ρ)

end Cert.KernelIdeal.Hand

end
-- ==== Proof.ValueKI.lean ====
/-
  What the region leaves in its result array, as one function of the two arrays it reads.
  The region streams the logits X (shape [8,20,262144]: image, class, position) and the labels T ([8,262144]) in 32
  blocks of 8192 positions and writes Y ([8,262144,20]). At a position of a block the body's stored value is
     X[n,k,p] · w(T[n,p]),   w(v) = the flag "v ≠ 255" widened to a 32-bit integer and converted to a float,
  (`pay_apply`: the exchange of the last two axes reads X at the exchanged index, the broadcast along the class axis
  reads the weight of the position). A block's position p at grid point t is array position t·8192 + p on every
  window, so what point t writes back is block t of the whole-array function `Gout X T` (`flushed_eq`), the 32
  blocks cover the array (`covered`), and the array ends at `Gout X T` (`final_out`). X and T themselves are the
  row-major re-shapes of the first two arguments (`V_logits`, `V_labels`).
-/
import proofs.«407861_j13477607375413_1_alg».proof.Proof.FrameKI
import Idealize.ShloMosaic.Lib.Pipeline.Value
import Idealize.ShloMosaic.Lib.ValueIdx
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat)

variable {F : FTy → Type} [FloatOps F]
variable (m : (ℓ : Loc nD τ sig) → Buf (Elt F) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The weight of a label: 1 unless the label is 255, as the body computes it. -/
def wt (v : BitVec 32) : Elt F .f32 := FloatOps.sitofp .f32 ((IntOp.cmpi .ne v 255#32).setWidth 32)

/-- The stored value at position (n, p) and class k of a block. -/
theorem pay_apply (x0 : Vec F S8x20x8192 .f32) (x1 : Vec F S8x8192 .i32) (n : Fin 8) (p : Fin 8192) (k : Fin 20) :
    k0_pay1 x0 x1 (ix3 n p k) = FloatOps.mulf (x0 (ix3 n k p)) (wt (F := F) (x1 (ix2 n p))) := by
  unfold k0_pay1
  show FloatOps.mulf
      (transpose S8x8192x20 [0, 2, 1] (shapeCast S8x20x8192 x0 shapeCasts_S8x20x8192_S8x20x8192) transposes_S8x20x8192_p0_2_1_S8x8192x20 (ix3 n p k))
      (broadcastTo S8x8192x20 (shapeCast S8x8192x1 (sitofp (F := F) .f32 (extui 32 (cmpi .ne (shapeCast S8x8192 x1 shapeCasts_S8x8192_S8x8192) (broadcast S8x8192 255#32)) natLt_1_32)) shapeCasts_S8x8192_S8x8192x1) broadcasts_S8x8192x1_S8x8192x20 (ix3 n p k)) = _
  rw [shapeCast_self, shapeCast_self]
  refine congrArg₂ FloatOps.mulf ?_ ?_
  · exact transpose_apply _ x0 _ (ix3 n p k) (ix3 n k p) fun b => match b with | ⟨0, _⟩ => rfl | ⟨1, _⟩ => rfl | ⟨2, _⟩ => rfl
  · refine (broadcastTo_apply _ broadcasts_S8x8192x1_S8x8192x20 (ix3 n p k) (ix3 n p (0 : Fin 1)) fun a => match a with
      | ⟨0, _⟩ => by
        show n.val = if (8 : ℕ) = 1 then 0 else n.val
        rw [if_neg (by decide)]
      | ⟨1, _⟩ => by
        show p.val = if (8192 : ℕ) = 1 then 0 else p.val
        rw [if_neg (by decide)]
      | ⟨2, _⟩ => by
        show (0 : ℕ) = if (1 : ℕ) = 1 then 0 else k.val
        rw [if_pos rfl]).trans ?_
    exact shapeCast_apply _ shapeCasts_S8x8192_S8x8192x1 (ix3 n p (0 : Fin 1)) (ix2 n p) (by
      rw [Shape.rowMajor_val_two, Shape.rowMajor_val_three]
      show n.val * 8192 + p.val = (n.val * 8192 + p.val) * 1 + 0
      omega)

/-- The result array as one function of the logits X and the labels T. -/
def Gout (X : Vec F S8x20x262144 .f32) (T : Vec F S8x262144 .i32) : Vec F S8x262144x20 .f32 :=
  fun i => FloatOps.mulf (X (ix3 (i 0 : Fin 8) (i 2 : Fin 20) (i 1 : Fin 262144))) (wt (F := F) (T (ix2 (i 0 : Fin 8) (i 1 : Fin 262144))))

theorem Gout_apply (X : Vec F S8x20x262144 .f32) (T : Vec F S8x262144 .i32) (n : Fin 8) (q : Fin 262144) (k : Fin 20) :
    Gout X T (ix3 n q k) = FloatOps.mulf (X (ix3 n k q)) (wt (F := F) (T (ix2 n q))) := rfl

/-- The windows' block indices over the grid: only the position axis moves, one block a point. -/
theorem idx_facts : ∀ t : Fin cfg0.N, win0_0.index t (0 : Fin 3) = 0 ∧ win0_0.index t (1 : Fin 3) = 0 ∧ win0_0.index t (2 : Fin 3) = t.val
    ∧ win0_1.index t (0 : Fin 2) = 0 ∧ win0_1.index t (1 : Fin 2) = t.val
    ∧ win0_2.index t (0 : Fin 3) = 0 ∧ win0_2.index t (1 : Fin 3) = t.val ∧ win0_2.index t (2 : Fin 3) = 0 :=
  (by decide +kernel : ∀ t : Fin grid0.N, _)

/-- The logits block at point t is positions t·8192 … t·8192 + 8191 of X. -/
theorem iblk0_apply (c : Dev nD) (t : Fin cfg0.N) (n : Fin 8) (k : Fin 20) (p : Fin 8192) (q : Fin 262144) (hq : q.val = t.val * 8192 + p.val) :
    (iblk m c 0 t : Vec F S8x20x8192 .f32) (ix3 n k p) = (V m c main_v0 : S8x20x262144.Idx → Elt F .f32) (ix3 n k q) := by
  obtain ⟨e0, e1, e2, -⟩ := idx_facts t
  unfold iblk
  rw [View.read_apply]
  show V m c main_v0 _ = V m c main_v0 _
  congr 1
  funext a
  apply Fin.ext
  match a with
  | ⟨0, _⟩ => show win0_0.index t 0 * 8 + 1 * n.val = n.val; rw [e0]; omega
  | ⟨1, _⟩ => show win0_0.index t 1 * 20 + 1 * k.val = k.val; rw [e1]; omega
  | ⟨2, _⟩ => show win0_0.index t 2 * 8192 + 1 * p.val = q.val; rw [e2, hq]; omega

/-- The labels block at point t is the same positions of T. -/
theorem iblk1_apply (c : Dev nD) (t : Fin cfg0.N) (n : Fin 8) (p : Fin 8192) (q : Fin 262144) (hq : q.val = t.val * 8192 + p.val) :
    (iblk m c 1 t : Vec F S8x8192 .i32) (ix2 n p) = (V m c main_v1 : S8x262144.Idx → Elt F .i32) (ix2 n q) := by
  obtain ⟨-, -, -, e0, e1, -⟩ := idx_facts t
  unfold iblk
  rw [View.read_apply]
  show V m c main_v1 _ = V m c main_v1 _
  congr 1
  funext a
  apply Fin.ext
  match a with
  | ⟨0, _⟩ => show win0_1.index t 0 * 8 + 1 * n.val = n.val; rw [e0]; omega
  | ⟨1, _⟩ => show win0_1.index t 1 * 8192 + 1 * p.val = q.val; rw [e1, hq]; omega

/-- What the body leaves in the output block at point t, at (n, p, k): the whole-array function at position t·8192 + p. -/
theorem out_apply (c : Dev nD) (t : Fin cfg0.N) (n : Fin 8) (p : Fin 8192) (k : Fin 20) (q : Fin 262144) (hq : q.val = t.val * 8192 + p.val) :
    k0_pay1 (iblk m c 0 t : Vec F S8x20x8192 .f32) (iblk m c 1 t : Vec F S8x8192 .i32) (ix3 n p k)
      = Gout (V m c main_v0) (V m c main_v1) (ix3 n q k) := by
  rw [pay_apply, Gout_apply, iblk0_apply m c t n k p q hq, iblk1_apply m c t n p q hq]

/-- WHAT POINT t WRITES BACK is block t of `Gout X T`. -/
theorem flushed_eq (c : Dev nD) (t : Fin cfg0.N) :
    (dats m 0 c).flushed 2 t = ((cfg0.win 2).blk t).view.read (Elt F) (Gout (V m c main_v0) (V m c main_v1)) := by
  show (cfg0.win 2).cut (grid0.coords t) ((dats m 0 c).after 2 t) = _
  rw [after0_2]
  unfold outBlock
  rw [View.canon_unit_zero hz3]
  simp only [View.ld_unit_zero (S := S8x20x8192) hz3, View.ld_unit_zero (S := S8x8192) hz2]
  obtain ⟨-, -, -, -, -, e0, e1, e2⟩ := idx_facts t
  have htN : t.val < 32 := Nat.lt_of_lt_of_eq t.isLt (show cfg0.N = 32 from N_0)
  funext j
  have hj0 : (j 0).val < 8 := (j 0).isLt
  have hj1 : (j 1).val < 8192 := (j 1).isLt
  have hj2 : (j 2).val < 20 := (j 2).isLt
  show k0_pay1 (iblk m c 0 t : Vec F S8x20x8192 .f32) (iblk m c 1 t : Vec F S8x8192 .i32) ((cfg0.win 2).xinj (grid0.coords t) j)
    = Gout (V m c main_v0) (V m c main_v1) (((cfg0.win 2).blk t).view.emb j)
  have a1 : (cfg0.win 2).xinj (grid0.coords t) j = ix3 (⟨(j 0).val, hj0⟩ : Fin 8) (⟨(j 1).val, hj1⟩ : Fin 8192) (⟨(j 2).val, hj2⟩ : Fin 20) :=
    funext fun a => match a with | ⟨0, _⟩ => rfl | ⟨1, _⟩ => rfl | ⟨2, _⟩ => rfl
  have a2 : ((cfg0.win 2).blk t).view.emb j = ix3 (⟨(j 0).val, hj0⟩ : Fin 8) (⟨t.val * 8192 + (j 1).val, by omega⟩ : Fin 262144) (⟨(j 2).val, hj2⟩ : Fin 20) :=
    funext fun a => Fin.ext (match a with
      | ⟨0, _⟩ => by show win0_2.index t 0 * 8 + 1 * (j 0).val = (j 0).val; rw [e0]; omega
      | ⟨1, _⟩ => by show win0_2.index t 1 * 8192 + 1 * (j 1).val = t.val * 8192 + (j 1).val; rw [e1]; omega
      | ⟨2, _⟩ => by show win0_2.index t 2 * 20 + 1 * (j 2).val = (j 2).val; rw [e2]; omega)
  rw [a1, a2]
  exact out_apply m c t _ _ _ _ rfl

/-- An index of the array lies in point t's block iff each coordinate lies in the block's range. -/
theorem mem_blk (t : Fin cfg0.N) (i : S8x262144x20.Idx) :
    i ∈ ((cfg0.win 2).blk t).view.set ↔ ∀ a : Fin 3, win0_2.index t a * S8x8192x20.size a ≤ (i a).val ∧ (i a).val < win0_2.index t a * S8x8192x20.size a + S8x8192x20.size a := by
  show i ∈ ((View.whole main_v2).slice (win0_2.rect t)).set ↔ _
  rw [View.set_slice_whole, Rect.mem_set_unit]
  exact Iff.rfl

/-- Every index of the array lies in the block of the point its position falls in. -/
theorem covered (i : S8x262144x20.Idx) : ∃ t : Fin cfg0.N, (cfg0.win 2).flush t = true ∧ i ∈ ((cfg0.win 2).blk t).view.set := by
  have hi0 : (i 0).val < 8 := (i 0).isLt
  have hi1 : (i 1).val < 262144 := (i 1).isLt
  have hi2 : (i 2).val < 20 := (i 2).isLt
  have hN : cfg0.N = 32 := N_0
  let t : Fin cfg0.N := ⟨(i 1).val / 8192, Nat.lt_of_lt_of_eq (by omega : (i 1).val / 8192 < 32) hN.symm⟩
  obtain ⟨-, -, -, -, -, e0, e1, e2⟩ := idx_facts t
  have e1' : win0_2.index t (1 : Fin 3) = (i 1).val / 8192 := e1
  refine ⟨t, flush0_2 t, ?_⟩
  rw [mem_blk]
  intro a
  match a with
  | ⟨0, _⟩ => show win0_2.index t 0 * 8 ≤ (i 0).val ∧ (i 0).val < win0_2.index t 0 * 8 + 8; rw [e0]; omega
  | ⟨1, _⟩ => show win0_2.index t 1 * 8192 ≤ (i 1).val ∧ (i 1).val < win0_2.index t 1 * 8192 + 8192; rw [e1']; omega
  | ⟨2, _⟩ => show win0_2.index t 2 * 20 ≤ (i 2).val ∧ (i 2).val < win0_2.index t 2 * 20 + 20; rw [e2]; omega

/-- THE ARRAY after the region: `Gout X T`. -/
theorem final_out (c : Dev nD) : (dats m 0 c).arrAt 2 cfg0.N = Gout (V m c main_v0) (V m c main_v1) :=
  (dats m 0 c).arrAt_eq_of_cover 2 (Gout (V m c main_v0) (V m c main_v1)) (fun t _ => flushed_eq m c t) covered

/-- X is the first argument with its two image axes merged. -/
theorem V_logits (c : Dev nD) : (V m c main_v0 : S8x20x262144.Idx → Elt F .f32)
    = shapeCast S8x20x262144 (m ((c : Thread nD τ).loc main_arg0)) shapeCasts_S8x20x512x512_S8x20x262144 := by
  show StableHlo.after hostOps0 (fun b => m (c, b)) (Proc.devRef .tc main_v0) = _
  after_results
  rfl

/-- T is the second argument with its two image axes merged. -/
theorem V_labels (c : Dev nD) : (V m c main_v1 : S8x262144.Idx → Elt F .i32)
    = shapeCast S8x262144 (m ((c : Thread nD τ).loc main_arg1)) shapeCasts_S8x512x512_S8x262144 := by
  show StableHlo.after hostOps0 (fun b => m (c, b)) (Proc.devRef .tc main_v1) = _
  after_results
  rfl

end Cert.KernelIdeal.Hand

end
-- ==== Proof.RefProd.lean ====
/-
  The reference's first stage as one function: the logits with the class axis moved last and the pixels flattened,
  each row multiplied by the weight of its pixel (the flag "label ≠ 255" as a float), the weight copied along the
  class axis. Everything the reference computes afterwards reads only this product and the three integer arguments.
-/
import proofs.«407861_j13477607375413_1_alg».proof.Proof.Gen.ReferenceIdeal

noncomputable section

namespace Cert.ReferenceIdeal.Hand

open Cert.ReferenceIdeal Cert.ReferenceIdeal.Gen Idealize.ShloMosaic

variable {F : FTy → Type} [FloatOps F]

/-- logits[(n h w), k] · w(label[(n h w)]). -/
def refProd (x : FVec F S8x20x512x512 .f32) (t : IVec S8x512x512 32) : FVec F S2097152x20 .f32 :=
  mulf (shapeCast S2097152x20 (transpose S8x512x512x20 [0, 2, 3, 1] x transposes_S8x20x512x512_S8x512x512x20_0_2_3_1) shapeCasts_S8x512x512x20_S2097152x20) (broadcastInDim S2097152x20 ![0, 1] bcast_S2097152x1_S2097152x20_0_1 (broadcastInDim S2097152x1 ![0] bcast_S2097152_S2097152x1_0 (uitofp (F := F) .f32 (cmpi .ne (shapeCast S2097152 t shapeCasts_S8x512x512_S2097152) (broadcastInDim S2097152 ![] bcast_S_S2097152 (constantI S_ 32 255#32))))))

end Cert.ReferenceIdeal.Hand

end
-- ==== Proof.Tail.lean ====
/-
  The host operations after the region, on the kernel's side, against the reference's run.
  After the region the kernel's program applies to the region's result (flattened to [2097152,20]) and to the three
  integer arguments exactly the operations the reference applies to its own product and the same arguments: the two
  scatter-adds into the 8192 parcels, the quotient by the clamped count, the first-valid-pixel label by a
  scatter-min and a gather, the balanced log-softmax, the gather of the label's entry, the masked sum and the final
  quotient. So once the flattened result is the reference's product (`hx`) and the integer arguments agree, the two
  composed terms are one term. Stated at an arbitrary float instance and an arbitrary valuation `W` of the kernel
  program's buffers, so that nothing here looks inside an array.
-/
import proofs.«407861_j13477607375413_1_alg».proof.Proof.Gen.KernelIdeal.Launch
import proofs.«407861_j13477607375413_1_alg».proof.Proof.RefRun
import proofs.«407861_j13477607375413_1_alg».proof.Proof.RefProd
import Idealize.ShloMosaic.Lib.StableHlo.Run

noncomputable section

namespace Cert.Proof.Tail

open Idealize.ShloMosaic Idealize.ShloMosaic.TcCoe Idealize.SL.Sem Idealize.ShloMosaic.StableHlo

variable {F : FTy → Type} [FloatOps F]

set_option maxRecDepth 65536 in
set_option maxHeartbeats 40000000 in
/-- The kernel program's result, from any contents `W` of its buffers at the region's exit, is the reference's
    composed result of a memory `m'`, when `W`'s flattened region result is the reference's product of `m'`'s first
    two arguments and `W` agrees with `m'` on the three integer arguments. -/
theorem tail_eq (W : Valuation Cert.KernelIdeal.τ Cert.KernelIdeal.sig (Elt F))
    (m' : (ℓ : Loc Cert.ReferenceIdeal.nD Cert.ReferenceIdeal.τ Cert.ReferenceIdeal.sig) → Buf (Elt F) ℓ) (c : Dev Cert.ReferenceIdeal.nD)
    (hx : shapeCast Cert.KernelIdeal.S2097152x20 (W (Proc.devRef .tc Cert.KernelIdeal.main_v2)) Cert.KernelIdeal.Gen.shapeCasts_S8x262144x20_S2097152x20
      = Cert.ReferenceIdeal.Hand.refProd (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)))
    (h1 : W (Proc.devRef .tc Cert.KernelIdeal.main_arg1) = m' ((c.tc : Thread Cert.ReferenceIdeal.nD Cert.ReferenceIdeal.τ).loc Cert.ReferenceIdeal.main_arg1))
    (h2 : W (Proc.devRef .tc Cert.KernelIdeal.main_arg2) = m' ((c.tc : Thread Cert.ReferenceIdeal.nD Cert.ReferenceIdeal.τ).loc Cert.ReferenceIdeal.main_arg2))
    (h3 : W (Proc.devRef .tc Cert.KernelIdeal.main_arg3) = m' ((c.tc : Thread Cert.ReferenceIdeal.nD Cert.ReferenceIdeal.τ).loc Cert.ReferenceIdeal.main_arg3)) :
    StableHlo.after (List.flatten [Cert.KernelIdeal.Gen.hostOps1, Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8]) W (Proc.devRef .tc Cert.KernelIdeal.main_v51)
      = Cert.ReferenceIdeal.ValueP.res_main_v52 m' c := by
  have hx' : (fun i => shapeCast Cert.KernelIdeal.main_v3.ty.shape (W (Proc.devRef .tc Cert.KernelIdeal.main_v2)) Cert.KernelIdeal.Gen.shapeCasts_S8x262144x20_S2097152x20 i)
      = Cert.ReferenceIdeal.Hand.refProd (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) := hx
  simp only [Cert.KernelIdeal.Gen.hostOps1, Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8, List.flatten_cons, List.flatten_nil, List.append_nil, List.cons_append, List.nil_append]
  after_results_simp
  rw [hx', h1, h2, h3]
  unfold Cert.ReferenceIdeal.ValueP.res_main_v52 Cert.ReferenceIdeal.Hand.refProd
  try simp only [TRef.ofBuf, TRef.toBuf, cast_eq]
  rfl

end Cert.Proof.Tail

end
-- ==== Proof.Bridge.lean ====
/-
  Index arithmetic shared by the two sides, over literal shapes and arbitrary element types.
  A pixel r < 8·512·512 is the triple (n, h, w) = (r / 262144, r % 262144 / 512, r % 512); inside one image its
  flat position is q = r % 262144 = h·512 + w. The lemmas read each layout operation of the two programs at an
  index written by coordinates: the row-major re-shapes between [8,20,512,512] / [8,20,262144], [8,512,512] /
  [8,262144] / [2097152], [8,262144,20] / [2097152,20] and [8,512,512,20] / [2097152,20]; the exchange of axes that
  moves the class axis last; and the two broadcasts that copy a per-pixel weight along the class axis. The last
  lemma says the weight itself is the same number on both sides: a one-bit flag widened to 32 bits and read as a
  signed integer is the flag read as an unsigned integer (0 or 1).
-/
import Idealize.ShloMosaic.PureOps.Ideal
import Idealize.ShloMosaic.Lib.ValueIdx
import Idealize.ShloMosaic.Lib.Pipeline.Value

noncomputable section

namespace Cert.Bridge

open Idealize.ShloMosaic Idealize.ShloMosaic.ValueIdx

variable {α : Type}

/-- The image a pixel lies in. -/
def pn (r : Fin 2097152) : Fin 8 := ⟨r.val / 262144, by have := r.isLt; omega⟩
/-- Its flat position inside the image. -/
def pq (r : Fin 2097152) : Fin 262144 := ⟨r.val % 262144, by omega⟩
/-- Its row. -/
def ph (r : Fin 2097152) : Fin 512 := ⟨r.val % 262144 / 512, by omega⟩
/-- Its column. -/
def pw (r : Fin 2097152) : Fin 512 := ⟨r.val % 512, by omega⟩
/-- The row of a flat position inside an image. -/
def qh (q : Fin 262144) : Fin 512 := ⟨q.val / 512, by have := q.isLt; omega⟩
/-- The column of a flat position inside an image. -/
def qw (q : Fin 262144) : Fin 512 := ⟨q.val % 512, by omega⟩

theorem qh_pq (r : Fin 2097152) : qh (pq r) = ph r := rfl
theorem qw_pq (r : Fin 2097152) : qw (pq r) = pw r := Fin.ext (by show r.val % 262144 % 512 = r.val % 512; omega)

/-- [8,262144,20] flattened to [2097152,20]: row r is (image, position). -/
theorem cast_out (K : (⟨3, ![8, 262144, 20]⟩ : Shape).Idx → α)
    (h : (⟨3, ![8, 262144, 20]⟩ : Shape).ShapeCasts ⟨2, ![2097152, 20]⟩) (r : Fin 2097152) (k : Fin 20) :
    shapeCast ⟨2, ![2097152, 20]⟩ K h (ix2 r k) = K (ix3 (pn r) (pq r) k) :=
  shapeCast_apply K h _ _ (by
    rw [Shape.rowMajor_val_three, Shape.rowMajor_val_two]
    show (r.val / 262144 * 262144 + r.val % 262144) * 20 + k.val = r.val * 20 + k.val
    omega)

/-- [8,20,512,512] with the two image axes merged: position q is (row, column). -/
theorem cast_pred (x : (⟨4, ![8, 20, 512, 512]⟩ : Shape).Idx → α)
    (h : (⟨4, ![8, 20, 512, 512]⟩ : Shape).ShapeCasts ⟨3, ![8, 20, 262144]⟩) (n : Fin 8) (k : Fin 20) (q : Fin 262144) :
    shapeCast ⟨3, ![8, 20, 262144]⟩ x h (ix3 n k q) = x (ix4 n k (qh q) (qw q)) :=
  shapeCast_apply x h _ _ (by
    rw [Shape.rowMajor_val_four, Shape.rowMajor_val_three]
    show ((n.val * 20 + k.val) * 512 + q.val / 512) * 512 + q.val % 512 = (n.val * 20 + k.val) * 262144 + q.val
    omega)

/-- [8,512,512] with the two image axes merged. -/
theorem cast_lab2 (t : (⟨3, ![8, 512, 512]⟩ : Shape).Idx → α)
    (h : (⟨3, ![8, 512, 512]⟩ : Shape).ShapeCasts ⟨2, ![8, 262144]⟩) (n : Fin 8) (q : Fin 262144) :
    shapeCast ⟨2, ![8, 262144]⟩ t h (ix2 n q) = t (ix3 n (qh q) (qw q)) :=
  shapeCast_apply t h _ _ (by
    rw [Shape.rowMajor_val_three, Shape.rowMajor_val_two]
    show (n.val * 512 + q.val / 512) * 512 + q.val % 512 = n.val * 262144 + q.val
    omega)

/-- [8,512,512] flattened to one axis of pixels. -/
theorem cast_lab1 (t : (⟨3, ![8, 512, 512]⟩ : Shape).Idx → α)
    (h : (⟨3, ![8, 512, 512]⟩ : Shape).ShapeCasts ⟨1, ![2097152]⟩) (r : Fin 2097152) :
    shapeCast ⟨1, ![2097152]⟩ t h (ix1 r) = t (ix3 (pn r) (ph r) (pw r)) :=
  shapeCast_apply t h _ _ (by
    rw [Shape.rowMajor_val_three, Shape.rowMajor_val_one]
    show (r.val / 262144 * 512 + r.val % 262144 / 512) * 512 + r.val % 512 = r.val
    omega)

/-- [8,512,512,20] flattened to [2097152,20]. -/
theorem cast_chlast (y : (⟨4, ![8, 512, 512, 20]⟩ : Shape).Idx → α)
    (h : (⟨4, ![8, 512, 512, 20]⟩ : Shape).ShapeCasts ⟨2, ![2097152, 20]⟩) (r : Fin 2097152) (k : Fin 20) :
    shapeCast ⟨2, ![2097152, 20]⟩ y h (ix2 r k) = y (ix4 (pn r) (ph r) (pw r) k) :=
  shapeCast_apply y h _ _ (by
    rw [Shape.rowMajor_val_four, Shape.rowMajor_val_two]
    show ((r.val / 262144 * 512 + r.val % 262144 / 512) * 512 + r.val % 512) * 20 + k.val = r.val * 20 + k.val
    omega)

/-- The class axis moved last: [8,20,512,512] read as [8,512,512,20]. -/
theorem tr_chlast (x : (⟨4, ![8, 20, 512, 512]⟩ : Shape).Idx → α)
    (h : (⟨4, ![8, 20, 512, 512]⟩ : Shape).Transposes [0, 2, 3, 1] ⟨4, ![8, 512, 512, 20]⟩)
    (n : Fin 8) (a : Fin 512) (b : Fin 512) (k : Fin 20) :
    transpose ⟨4, ![8, 512, 512, 20]⟩ [0, 2, 3, 1] x h (ix4 n a b k) = x (ix4 n k a b) :=
  transpose_apply _ x h _ _ fun c => match c with | ⟨0, _⟩ => rfl | ⟨1, _⟩ => rfl | ⟨2, _⟩ => rfl | ⟨3, _⟩ => rfl

/-- A per-pixel value given a unit class axis. -/
theorem bcast_col (v : (⟨1, ![2097152]⟩ : Shape).Idx → α) (dims : Fin 1 → Fin 2)
    (hd : dims 0 = 0)
    (h : (⟨1, ![2097152]⟩ : Shape).BroadcastsInDim ⟨2, ![2097152, 1]⟩ dims) (r : Fin 2097152) (u : Fin 1) :
    broadcastInDim ⟨2, ![2097152, 1]⟩ dims h v (ix2 r u) = v (ix1 r) :=
  broadcastInDim_apply dims h v (ix2 r u) (ix1 r) fun a => match a with
    | ⟨0, _⟩ => by
      show r.val = if (2097152 : ℕ) = 1 then 0 else ((ix2 r u : (⟨2, ![2097152, 1]⟩ : Shape).Idx) (dims 0)).val
      rw [if_neg (by decide), hd]

/-- The unit class axis stretched to the 20 classes. -/
theorem bcast_row (v : (⟨2, ![2097152, 1]⟩ : Shape).Idx → α) (dims : Fin 2 → Fin 2)
    (hd0 : dims 0 = 0) (hd1 : dims 1 = 1)
    (h : (⟨2, ![2097152, 1]⟩ : Shape).BroadcastsInDim ⟨2, ![2097152, 20]⟩ dims) (r : Fin 2097152) (k : Fin 20) :
    broadcastInDim ⟨2, ![2097152, 20]⟩ dims h v (ix2 r k) = v (ix2 r (0 : Fin 1)) :=
  broadcastInDim_apply dims h v (ix2 r k) (ix2 r (0 : Fin 1)) fun a => match a with
    | ⟨0, _⟩ => by
      show r.val = if (2097152 : ℕ) = 1 then 0 else ((ix2 r k : (⟨2, ![2097152, 20]⟩ : Shape).Idx) (dims 0)).val
      rw [if_neg (by decide), hd0]
    | ⟨1, _⟩ => by
      show (0 : ℕ) = if (1 : ℕ) = 1 then 0 else ((ix2 r k : (⟨2, ![2097152, 20]⟩ : Shape).Idx) (dims 1)).val
      rw [if_pos rfl]

/-- A one-bit flag, zero-extended to 32 bits and read signed, is the flag read unsigned: both are 0 or 1. -/
theorem flag_weight (b : BitVec 1) :
    FloatOps.sitofp (F := Ideal) .f32 (b.setWidth 32) = FloatOps.uitofp (F := Ideal) .f32 b := by
  show (((b.setWidth 32).toInt : ℝ) : EReal) = ((b.toNat : ℝ) : EReal)
  have : (b.setWidth 32).toInt = (b.toNat : ℤ) := by revert b; decide
  rw [this]; norm_cast

end Cert.Bridge

end
-- ==== Proof.ProdEq.lean ====
/-
  The region's result, flattened, is the reference's product — over the extended reals, index by index.
  At row r = (n, h, w) and class k both are  x[n,k,h,w] · w(label[n,h,w]):
  on the kernel's side the flattened array reads the region's result at (n, q, k) with q = h·512 + w, whose logits
  and labels are the arguments with their image axes merged, read back at (h, w);
  on the reference's side the flattened, axis-exchanged logits read x at (n, k, h, w) and the twice-broadcast weight
  reads the flat label array at r, which is the label at (n, h, w).
  The two spellings of the weight (a 32-bit signed conversion of the widened flag; an unsigned conversion of the flag)
  are the same number, 0 or 1.
-/
import proofs.«407861_j13477607375413_1_alg».proof.Proof.ValueKI
import proofs.«407861_j13477607375413_1_alg».proof.Proof.Bridge
import proofs.«407861_j13477607375413_1_alg».proof.Proof.RefProd

noncomputable section

namespace Cert.Proof.ProdEq

open Idealize.ShloMosaic Idealize.ShloMosaic.ValueIdx Cert.Bridge

theorem prod_eq (x : FVec Ideal Cert.KernelIdeal.S8x20x512x512 .f32) (t : IVec Cert.KernelIdeal.S8x512x512 32) :
    shapeCast Cert.KernelIdeal.S2097152x20
        (Cert.KernelIdeal.Hand.Gout (F := Ideal) (shapeCast Cert.KernelIdeal.S8x20x262144 x Cert.KernelIdeal.Gen.shapeCasts_S8x20x512x512_S8x20x262144)
          (shapeCast Cert.KernelIdeal.S8x262144 t Cert.KernelIdeal.Gen.shapeCasts_S8x512x512_S8x262144))
        Cert.KernelIdeal.Gen.shapeCasts_S8x262144x20_S2097152x20
      = Cert.ReferenceIdeal.Hand.refProd (F := Ideal) x t := by
  funext j
  obtain ⟨r, k, rfl⟩ : ∃ (r : Fin 2097152) (k : Fin 20), j = ix2 r k := ⟨j 0, j 1, eq_ix2 j⟩
  rw [cast_out, Cert.KernelIdeal.Hand.Gout_apply, cast_pred, cast_lab2, qh_pq, qw_pq]
  unfold Cert.ReferenceIdeal.Hand.refProd
  show FloatOps.mulf _ _ = FloatOps.mulf (shapeCast _ _ _ (ix2 r k)) (broadcastInDim _ _ _ _ (ix2 r k))
  refine congrArg₂ _ ?_ ?_
  · rw [cast_chlast, tr_chlast]
  · rw [bcast_row (dims := ![0, 1]) (hd0 := rfl) (hd1 := rfl), bcast_col (dims := ![0]) (hd := rfl)]
    show _ = FloatOps.uitofp (F := Ideal) .f32 (IntOp.cmpi .ne (shapeCast _ t _ (ix1 r)) 255#32)
    rw [cast_lab1]
    exact flag_weight _

end Cert.Proof.ProdEq

end
-- ==== Proof.Claims.lean ====
/-
  The five claims.
  The three frames: each kernel program by the frame proved for it at an arbitrary float instance; the reference by
  its run with the result dropped. Nothing was rewritten by the idealization, so that claim is `True`.
  The equivalence over the extended reals: the kernel program's result is what its later host operations compute
  from the region's result array and the three integer arguments. The region's result array is the product
  "logit times weight of the pixel" as one function of the first two arguments (`final_out`), which flattened is the
  reference's product (`prod_eq`); the host operations after it are the reference's own (`tail_eq`). So the kernel
  program's result is the reference's composed result of a memory that agrees with it on the arguments.
  No law here needs finiteness: both sides form the same products and sums in the same order.
-/
import proofs.«407861_j13477607375413_1_alg».proof.Defs
import proofs.«407861_j13477607375413_1_alg».proof.Proof.FrameK
import proofs.«407861_j13477607375413_1_alg».proof.Proof.FrameKI
import proofs.«407861_j13477607375413_1_alg».proof.Proof.ValueKI
import proofs.«407861_j13477607375413_1_alg».proof.Proof.RefRun
import proofs.«407861_j13477607375413_1_alg».proof.Proof.Tail
import proofs.«407861_j13477607375413_1_alg».proof.Proof.ProdEq
import proofs.«407861_j13477607375413_1_alg».proof.Proof.Gen.Kernel
import proofs.«407861_j13477607375413_1_alg».proof.Proof.Gen.KernelIdeal
import proofs.«407861_j13477607375413_1_alg».proof.Proof.Gen.ReferenceIdeal
import proofs.«407861_j13477607375413_1_alg».proof.Proof.Gen.Pre_finite_inputs

noncomputable section

namespace Cert.Proof.Claims

open Idealize.ShloMosaic Idealize.ShloMosaic.TcCoe Idealize.SL.Sem
open Cert.KernelIdeal Cert.KernelIdeal.Gen Cert.KernelIdeal.Hand

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.ValueP.run (F := Ideal) m ρ)
theorem preserves : Cert.preserves_Kernel_KernelIdeal := trivial

/-- The kernel program's result on core `c`: its later host operations applied to what the region leaves. -/
abbrev kres (m : (ℓ : Loc nD τ sig) → Buf (Elt Ideal) ℓ) (c : Dev nD) : Buf (Elt Ideal) ((c.tc : Thread nD τ).loc main_v51) :=
  Pipeline.afterTail₀ cfgs (dats m) 0 (V0 m) [hostOps1, hostOps1_1, hostOps1_2, hostOps1_3, hostOps1_4, hostOps1_5, hostOps1_6, hostOps1_7, hostOps1_8] c main_v51

/-- It is the reference's composed result of any memory agreeing with `m` on the four arguments. -/
theorem kres_eq (m : (ℓ : Loc nD τ sig) → Buf (Elt Ideal) ℓ)
    (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3)) :
    kres m c = Cert.ReferenceIdeal.ValueP.res_main_v52 m' c := by
  unfold kres Pipeline.afterTail₀
  refine Cert.Proof.Tail.tail_eq _ m' c ?_ ?_ ?_ ?_
  · rw [h0, h1]
    refine Eq.trans ?_ (Cert.Proof.ProdEq.prod_eq _ _)
    refine congrArg (fun A => shapeCast S2097152x20 A shapeCasts_S8x262144x20_S2097152x20) ?_
    refine (Pipeline.withArrays_arr spec0 launch0.win.arr_inj c _ _ 2).trans ?_
    rw [final_out, V_logits, V_labels]
  · rw [h1, Pipeline.withArrays_of_ne _ c (V0 m c) _ main_arg1 (by exact (by decide : ∀ w, Pipeline.arrRef spec0 w ≠ main_arg1))]
    exact V_main_arg1 m c
  · rw [h2, Pipeline.withArrays_of_ne _ c (V0 m c) _ main_arg2 (by exact (by decide : ∀ w, Pipeline.arrRef spec0 w ≠ main_arg2))]
    exact V_main_arg2 m c
  · rw [h3, Pipeline.withArrays_of_ne _ c (V0 m c) _ main_arg3 (by exact (by decide : ∀ w, Pipeline.arrRef spec0 w ≠ main_arg3))]
    exact V_main_arg3 m c

theorem algebraic : Cert.algebraic_KernelIdeal_ReferenceIdeal := by
  intro m ρ m' ρ' _ hagree
  refine ⟨fun c => kres m c, ?_, ?_⟩
  · exact (θ_run Cert.KernelIdeal.defs _ _).mono (fun _ h c => ⟨
      (h c).2 main_v51 (Pipeline.mem_restRefs_of main_v51 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
      (run_main (F := Ideal) m ρ)
  · exact (θ_run Cert.ReferenceIdeal.defs _ _).mono (fun _ h c => ⟨
      (h c).1.trans (kres_eq m m' c (hagree c).1 (hagree c).2.1 (hagree c).2.2.1 (hagree c).2.2.2).symm, (h c).2⟩)
      (Cert.ReferenceIdeal.ValueP.run (F := Ideal) m' ρ')

end Cert.Proof.Claims

end
-- ==== Proof.lean ====
/-
  The certificate's claim: the two kernel programs and the reference run to the end without fault and leave their
  arguments unchanged; the idealization rewrote nothing; and over the extended reals the kernel program and the
  reference end with the same scalar. The mathematics is in the modules under Proof/: the region's frame and what it
  leaves in its result array (FrameK, FrameKI, ValueKI), the index arithmetic that identifies that array, flattened,
  with the reference's masked logits (Bridge, ProdEq), the host operations after the region as the reference's own
  (Tail), the reference's run (RefRun), and the five claims (Claims).
-/
import proofs.«407861_j13477607375413_1_alg».proof.Defs
import proofs.«407861_j13477607375413_1_alg».proof.Proof.Claims
import proofs.«407861_j13477607375413_1_alg».proof.Proof.Gen.Kernel
import proofs.«407861_j13477607375413_1_alg».proof.Proof.Gen.KernelIdeal
import proofs.«407861_j13477607375413_1_alg».proof.Proof.Gen.ReferenceIdeal
import proofs.«407861_j13477607375413_1_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
